-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : FVec F S1600000 .f32) (main_arg2 : FVec F S512x128 .f32) (main_arg3 : FVec F S128 .f32) (main_arg4 : FVec F S128x40 .f32) (main_arg5 : FVec F S40 .f32) (main_arg6 : IVec S2x1600000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S50000x128 : Shape := ⟨2, ![50000, 128]⟩
abbrev S5000x512 : Shape := ⟨2, ![5000, 512]⟩
abbrev S5000x128 : Shape := ⟨2, ![5000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x40 : Shape := ⟨2, ![50000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 51
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S50000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S50000x128, .f32⟩
  | .hbm, ⟨29, _⟩ => ⟨S50000x40, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x40, .f32⟩
  | .hbm, ⟨43, _⟩ => ⟨S1600000x1, .f32⟩
  | .hbm, ⟨44, _⟩ => ⟨S1600000x40, .f32⟩
  | .hbm, ⟨45, _⟩ => ⟨S1600000x40, .f32⟩
  | .hbm, ⟨46, _⟩ => ⟨S_, .f32⟩
  | .hbm, ⟨47, _⟩ => ⟨S50000x40, .f32⟩
  | .hbm, ⟨48, _⟩ => ⟨S1600000x1, .i32⟩
  | .hbm, ⟨49, _⟩ => ⟨S50000x40, .f32⟩
  | .hbm, ⟨50, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x512_S512x128_S5000x128_1_0_0_1_n_n_wf : DotDims.WF S5000x512 S512x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x40_S5000x40_1_0_0_1_n_n_wf : DotDims.WF S5000x128 S128x40 S5000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S50000x128 : Shape := ⟨2, ![50000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S50000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x40, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x40, .f32⟩
  | .hbm, ⟨48, _⟩ => ⟨S1600000x1, .f32⟩
  | .hbm, ⟨49, _⟩ => ⟨S1600000x40, .f32⟩
  | .hbm, ⟨50, _⟩ => ⟨S1600000x40, .f32⟩
  | .hbm, ⟨51, _⟩ => ⟨S_, .f32⟩
  | .hbm, ⟨52, _⟩ => ⟨S50000x40, .f32⟩
  | .hbm, ⟨53, _⟩ => ⟨S1600000x1, .i32⟩
  | .hbm, ⟨54, _⟩ => ⟨S50000x40, .f32⟩
  | .hbm, ⟨55, _⟩ => ⟨S1x40, .f32⟩
  | .hbm, ⟨56, _⟩ => ⟨S50000x40, .f32⟩
  | .hbm, ⟨57, _⟩ => ⟨S50000x40, .f32⟩
  | .hbm, ⟨58, _⟩ => ⟨S_, .f32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x40, .f32⟩
  | .hbm, ⟨65, _⟩ => ⟨S50000x40, .f32⟩
  | .hbm, ⟨66, _⟩ => ⟨S50000x40, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S50000x40, .f32⟩
  | .hbm, ⟨72, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.Spec.lean ====
/-
  The two-layer graph convolution as plain functions of whole arrays, entry by entry over the extended reals:
  a rows-by-columns product, a bias with the positive part, and a bias with the row-wise log-softmax.
  Both programs are shown to compute these, with the same edge aggregation between them.
-/
import Idealize.ShloMosaic.Lib.ValueIdx
import Idealize.ShloMosaic.PureOps.Ideal

noncomputable section

namespace Cert.Gcn

open Idealize.ShloMosaic Idealize.ShloMosaic.ValueIdx

/-- The product `X · W`: entry (r, q) is `∑ c, X[r, c] · W[c, q]`. -/
def dense {n k d : Nat} (X : FVec Ideal ⟨2, ![n, k]⟩ .f32) (W : FVec Ideal ⟨2, ![k, d]⟩ .f32) :
    FVec Ideal ⟨2, ![n, d]⟩ .f32 :=
  fun i => ∑ c : Fin k, X (ix2 (i 0) c) * W (ix2 c (i 1))

/-- A row vector added to every row, then the positive part: entry (r, q) is `max (H[r, q] + b[q]) 0`. -/
def biasRelu {n d : Nat} (H : FVec Ideal ⟨2, ![n, d]⟩ .f32) (b : FVec Ideal ⟨1, ![d]⟩ .f32) :
    FVec Ideal ⟨2, ![n, d]⟩ .f32 :=
  fun i => max (H i + b (ix1 (i 1))) (Ideal.ofBits .f32 0x00000000#32)

/-- Entry (r, q) of `H` with the row vector `b` added. -/
def biased {n d : Nat} (H : FVec Ideal ⟨2, ![n, d]⟩ .f32) (b : FVec Ideal ⟨1, ![d]⟩ .f32) (r : Fin n) (q : Fin d) : EReal :=
  H (ix2 r q) + b (ix1 q)

/-- The largest entry of row `r` of `H + b` (the maximum taken from `-∞`). -/
def rowMax {n d : Nat} (H : FVec Ideal ⟨2, ![n, d]⟩ .f32) (b : FVec Ideal ⟨1, ![d]⟩ .f32) (r : Fin n) : EReal :=
  (Finset.univ : Finset (Fin d)).fold max (Ideal.ofBits .f32 0xFF800000#32) (fun q => biased H b r q)

/-- Entry (r, q) of `H + b` less its row's maximum. -/
def shifted {n d : Nat} (H : FVec Ideal ⟨2, ![n, d]⟩ .f32) (b : FVec Ideal ⟨1, ![d]⟩ .f32) (r : Fin n) (q : Fin d) : EReal :=
  biased H b r q - rowMax H b r

/-- The logarithm of the sum of the exponentials of row `r`'s shifted entries. -/
def rowLse {n d : Nat} (H : FVec Ideal ⟨2, ![n, d]⟩ .f32) (b : FVec Ideal ⟨1, ![d]⟩ .f32) (r : Fin n) : EReal :=
  Ideal.log (∑ q : Fin d, Ideal.exp (shifted H b r q))

/-- The row-wise log-softmax of `H + b`: entry (r, q) is the shifted entry less the row's log-sum-exp. -/
def biasLogSoftmax {n d : Nat} (H : FVec Ideal ⟨2, ![n, d]⟩ .f32) (b : FVec Ideal ⟨1, ![d]⟩ .f32) :
    FVec Ideal ⟨2, ![n, d]⟩ .f32 :=
  fun i => shifted H b (i 0) (i 1) - rowLse H b (i 0)

theorem dense_apply {n k d : Nat} (X : FVec Ideal ⟨2, ![n, k]⟩ .f32) (W : FVec Ideal ⟨2, ![k, d]⟩ .f32) (r : Fin n) (q : Fin d) :
    dense X W (ix2 r q) = ∑ c : Fin k, X (ix2 r c) * W (ix2 c q) := rfl

theorem biasRelu_apply {n d : Nat} (H : FVec Ideal ⟨2, ![n, d]⟩ .f32) (b : FVec Ideal ⟨1, ![d]⟩ .f32) (r : Fin n) (q : Fin d) :
    biasRelu H b (ix2 r q) = max (H (ix2 r q) + b (ix1 q)) (Ideal.ofBits .f32 0x00000000#32) := rfl

theorem biasLogSoftmax_apply {n d : Nat} (H : FVec Ideal ⟨2, ![n, d]⟩ .f32) (b : FVec Ideal ⟨1, ![d]⟩ .f32) (r : Fin n) (q : Fin d) :
    biasLogSoftmax H b (ix2 r q) = shifted H b r q - rowLse H b r := rfl

end Cert.Gcn

end
-- ==== Proof.Aggregate.lean ====
/-
  The edge aggregation both programs run on the host between their dense stages, as one function of the node
  features `h`, the edge weights `ew` and the edge endpoints `ei`: every edge gathers its source node's row of
  `h` (a negative source index wrapped once by the node count), scales it by the edge's weight, and adds it into
  its destination node's row of an all-zero array. It is carried whole: no proof opens the gather or the scatter.
-/
import proofs.«144000_j27109833572875_1_alg».proof.Proof.Gen.KernelIdeal

noncomputable section

namespace Cert.KernelIdeal.Agg

open Idealize.ShloMosaic Cert.KernelIdeal Cert.KernelIdeal.Facts₀ Cert.KernelIdeal.Facts

variable {F : FTy → Type} [FloatOps F]

/-- Row 0 of the endpoint array: each edge's source node. -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the endpoint array: each edge's destination node. -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative index has the node count added once (numpy's indexing from the end). -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 50000#32))) s

/-- The aggregation over rows of width 128. -/
def agg128 (h : (⟨S50000x128, .f32⟩ : BufTy).Contents (Elt F)) (ew : (⟨S1600000, .f32⟩ : BufTy).Contents (Elt F))
    (ei : (⟨S2x1600000, .i32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 (dstIdx ei))
    (mulf (Host.gather gather_S50000x128_S1600000x1_S1600000x128_1_0_n_n_0_1_1128 h
        (broadcastInDim S1600000x1 ![0] bcast_S1600000_S1600000x1_0 (wrapIdx (srcIdx ei))))
      (broadcastInDim S1600000x128 ![0, 1] bcast_S1600000x1_S1600000x128_0_1
        (broadcastInDim S1600000x1 ![0] bcast_S1600000_S1600000x1_0 ew)))

/-- The aggregation over rows of width 40. -/
def agg40 (h : (⟨S50000x40, .f32⟩ : BufTy).Contents (Elt F)) (ew : (⟨S1600000, .f32⟩ : BufTy).Contents (Elt F))
    (ei : (⟨S2x1600000, .i32⟩ : BufTy).Contents (Elt F)) : (⟨S50000x40, .f32⟩ : BufTy).Contents (Elt F) :=
  Host.scatterAdd scatter_S50000x40_S1600000x1_S1600000x40_1_0_0_1
    (broadcastInDim S50000x40 ![] bcast_S_S50000x40 (constant S_ .f32 0x00000000#32))
    (broadcastInDim S1600000x1 ![0] bcast_S1600000_S1600000x1_0 (dstIdx ei))
    (mulf (Host.gather gather_S50000x40_S1600000x1_S1600000x40_1_0_n_n_0_1_140 h
        (broadcastInDim S1600000x1 ![0] bcast_S1600000_S1600000x1_0 (wrapIdx (srcIdx ei))))
      (broadcastInDim S1600000x40 ![0, 1] bcast_S1600000x1_S1600000x40_0_1
        (broadcastInDim S1600000x1 ![0] bcast_S1600000_S1600000x1_0 ew)))

end Cert.KernelIdeal.Agg

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.Region0.lean ====
import proofs.«144000_j27109833572875_1_alg».proof.Proof.Gen.KernelIdeal.Frame
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! The first layer's product: the input rows times the first weight matrix. -/
namespace InputProduct

/-! ## The matrix unit's product of one row block, entry by entry -/

/-- The left operand is read at the result's row … -/
theorem prodL_row (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- … and at the shared coordinate. -/
theorem prodL_shared (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
/-- The right operand is read at the shared coordinate … -/
theorem prodR_shared (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
/-- … and at the result's column. -/
theorem prodR_col (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- Entry (p, q) of the body's result is the sum over the shared coordinate of the products of row p of the
    left block and column q of the right block: rounding to the narrower format is the identity on the extended
    reals, and the product accumulates into zero. -/
theorem blockProd_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  refine (Ideal.matmul_constant_zero_apply dot_S5000x512_S512x128_S5000x128_1_0_0_1_n_n none _ _ (ix2 p q)).trans ?_
  rw [← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
    match a with
    | ⟨0, _⟩ => exact prodL_row _ _
    | ⟨1, _⟩ => exact (prodL_shared _ _).trans hk)
  have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
    match a with
    | ⟨0, _⟩ => exact (prodR_shared _ _).trans hk
    | ⟨1, _⟩ => exact prodR_col _ _)
  rw [el, er]
  rfl

/-! ## From the row blocks to the whole product -/

theorem off_zero : (![0, 0] : Fin 2 → Nat) = fun _ => 0 := funext fun a => by fin_cases a <;> rfl

/-- The block index maps at every point of the grid: point t reads row block t of the left matrix, the whole right
    matrix, and writes row block t of the result. -/
theorem rowBlock_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left matrix's block at point t is entry (5000 t + p, k) of the matrix. -/
theorem left_emb (t : Fin cfg0.N) (p : Fin 5000) (k : Fin 512) (r : Fin 50000) (hr : r.val = t.val * 5000 + p.val) :
    ((cfg0.win 0).blk t).view.emb (ix2 p k : S5000x512.Idx) = (ix2 r k : S50000x512.Idx) := by
  obtain ⟨e0, e1, -⟩ := rowBlock_idx t
  funext a; apply Fin.ext
  match a with
  | ⟨0, _⟩ => show win0_0.index t (0 : Fin 2) * 5000 + 1 * p.val = r.val; omega
  | ⟨1, _⟩ => show win0_0.index t (1 : Fin 2) * 512 + 1 * k.val = k.val; omega

/-- The right matrix's block at every point is the whole matrix. -/
theorem right_emb (t : Fin cfg0.N) (k : Fin 512) (q : Fin 128) :
    ((cfg0.win 1).blk t).view.emb (ix2 k q : S512x128.Idx) = (ix2 k q : S512x128.Idx) := by
  obtain ⟨-, -, e2, e3, -⟩ := rowBlock_idx t
  funext a; apply Fin.ext
  match a with
  | ⟨0, _⟩ => show win0_1.index t (0 : Fin 2) * 512 + 1 * k.val = k.val; omega
  | ⟨1, _⟩ => show win0_1.index t (1 : Fin 2) * 128 + 1 * q.val = q.val; omega

/-- Entry (p, q) of the result's block at point t is entry (5000 t + p, q) of the result. -/
theorem out_emb (t : Fin cfg0.N) (p : Fin 5000) (q : Fin 128) (r : Fin 50000) (hr : r.val = t.val * 5000 + p.val) :
    ((cfg0.win 2).blk t).view.emb (ix2 p q : S5000x128.Idx) = (ix2 r q : S50000x128.Idx) := by
  obtain ⟨-, -, -, -, e4, e5⟩ := rowBlock_idx t
  funext a; apply Fin.ext
  match a with
  | ⟨0, _⟩ => show win0_2.index t (0 : Fin 2) * 5000 + 1 * p.val = r.val; omega
  | ⟨1, _⟩ => show win0_2.index t (1 : Fin 2) * 128 + 1 * q.val = q.val; omega

/-- What point t writes back is row block t of the product of the two matrices as the region finds them. -/
theorem rowBlock_eq (c : Dev nD) (t : Fin cfg0.N) :
    (dat0 (F := Ideal) V c).flushed 2 t
      = ((cfg0.win 2).blk t).view.read (Elt Ideal) (Cert.Gcn.dense (V c main_arg0) (V c main_arg2)) := by
  show (cfg0.win 2).cut (grid0.coords t) ((dat0 V c).after 2 t) = _
  rw [after0_2]
  unfold out0_2
  rw [View.canon_unit_zero off_zero]
  simp only [View.ld_unit_zero (S := S5000x512) off_zero, View.ld_unit_zero (S := S512x128) off_zero]
  funext j
  obtain ⟨p, q, rfl⟩ : ∃ (p : Fin 5000) (q : Fin 128), j = (ix2 p q : S5000x128.Idx) := ⟨j 0, j 1, eq_ix2 j⟩
  have ht : t.val < 10 := lt_of_lt_of_eq t.isLt N_0
  have hr : t.val * 5000 + p.val < 50000 := by have := p.isLt; omega
  show k0_pay1 (F := Ideal) (iblk0 V c 0 t) (iblk0 V c 1 t) (ix2 p q)
      = Cert.Gcn.dense (V c main_arg0) (V c main_arg2) (((cfg0.win 2).blk t).view.emb (ix2 p q : S5000x128.Idx))
  rw [out_emb t p q ⟨t.val * 5000 + p.val, hr⟩ rfl, Cert.Gcn.dense_apply]
  refine (blockProd_apply (iblk0 V c 0 t) (iblk0 V c 1 t) p q).trans ?_
  refine Finset.sum_congr rfl fun k _ => ?_
  exact congrArg₂ (fun a b : EReal => a * b)
    (congrArg (V c main_arg0) (left_emb t p k ⟨t.val * 5000 + p.val, hr⟩ rfl))
    (congrArg (V c main_arg2) (right_emb t k q))

/-- An index of the result is in point t's block iff each coordinate is in the block's range on its axis. -/
theorem mem_rowBlock (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the result lies in the block of point r / 5000. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < grid0.N := by rw [N_0]; omega
  refine ⟨⟨(i 0).val / 5000, hN⟩, flush0_2 _, ?_⟩
  rw [mem_rowBlock]
  obtain ⟨-, -, -, -, e4, e5⟩ := rowBlock_idx ⟨(i 0).val / 5000, hN⟩
  have e4' : win0_2.index ⟨(i 0).val / 5000, hN⟩ (0 : Fin 2) = (i 0).val / 5000 := e4
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

end InputProduct

/-- The region leaves in its result array the whole product of the input rows and the first weight matrix. -/
theorem arr0 (c : Dev nD) :
    (dat0 (F := Ideal) V c).arrAt 2 cfg0.N = Cert.Gcn.dense (V c main_arg0) (V c main_arg2) :=
  (dat0 (F := Ideal) V c).arrAt_eq_of_cover 2 (Cert.Gcn.dense (V c main_arg0) (V c main_arg2))
    (fun t _ => InputProduct.rowBlock_eq V c t) InputProduct.rows_covered

end Cert.KernelIdeal.RegionValue

end
-- ==== Proof.Region1.lean ====
import proofs.«144000_j27109833572875_1_alg».proof.Proof.Gen.KernelIdeal.Frame
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace BiasRelu

/-! ## The bias and positive part of one block, entry by entry -/

/-- The body's arithmetic at entry (p, q) of a block: the block's entry plus the row vector's entry q, then the
    larger of that and zero. -/
theorem biasRelu_block_apply (x0 : Vec Ideal S5000x128 .f32) (x1 : Vec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  rw [maximumf_apply, addf_apply, broadcast_apply, shapeCast_self, broadcastTo_1b_ab_apply, shapeCast_a_1a_apply]
  rfl

/-- A block's entry against the whole arrays: when the block's entry (p, q) is the array's entry at an index i of
    column q and the row vector's block is the row vector, the body leaves the specification's entry at i. -/
theorem biasRelu_block_point (x0 : Vec Ideal S5000x128 .f32) (x1 : Vec Ideal S128 .f32)
    (H : FVec Ideal S50000x128 .f32) (b : FVec Ideal S128 .f32) (p : Fin 5000) (q : Fin 128) (i : S50000x128.Idx)
    (h0 : x0 (ix2 p q) = H i) (h1 : x1 (ix1 q) = b (ix1 q)) (hq : (i 1).val = q.val) :
    k1_pay1 (F := Ideal) x0 x1 (ix2 p q) = Cert.Gcn.biasRelu H b i := by
  rw [biasRelu_block_apply, h0, h1]
  have hi : (i 1 : Fin 128) = q := Fin.ext hq
  show _ = max (H i + b (ix1 (i 1 : Fin 128))) _
  rw [hi]

/-! ## From the blocks to the array -/

theorem zero_offsets2 : (![0, 0] : Fin 2 → Nat) = fun _ => 0 := funext fun a => by fin_cases a <;> rfl

theorem zero_offsets1 : (![0] : Fin 1 → Nat) = fun _ => 0 := funext fun a => by fin_cases a <;> rfl

/-- The block indices over the grid: at point t the result's block and the first operand's block are both
    (t, 0), and the row vector's block is (0), the whole vector. -/
theorem block_indices : ∀ t : Fin cfg1.N, win1_0.index t (0 : Fin 2) = win1_2.index t (0 : Fin 2)
    ∧ win1_0.index t (1 : Fin 2) = win1_2.index t (1 : Fin 2)
    ∧ win1_1.index t (0 : Fin 1) = 0
    ∧ win1_2.index t (0 : Fin 2) = t.val
    ∧ win1_2.index t (1 : Fin 2) = 0 :=
  (by decide +kernel : ∀ t : Fin grid1.N, _)

/-- What point t writes back is block t of the bias and positive part of the two operand arrays as the region
    finds them. -/
theorem written_block_eq (c : Dev nD) (t : Fin cfg1.N) :
    (dat1 (F := Ideal) V c).flushed 2 t
      = ((cfg1.win 2).blk t).view.read (Elt Ideal) (Cert.Gcn.biasRelu (V c main_v17) (V c main_arg3)) := by
  show (cfg1.win 2).cut (grid1.coords t) ((dat1 V c).after 2 t) = _
  rw [after1_2]
  unfold out1_2
  rw [View.canon_unit_zero zero_offsets2]
  simp only [View.ld_unit_zero (S := S5000x128) zero_offsets2, View.ld_unit_zero (S := S128) zero_offsets1]
  obtain ⟨e0, e1, e2, e3, e4⟩ := block_indices t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Gcn.biasRelu (V c main_v17) (V c main_arg3) (((cfg1.win 2).blk t).view.emb (ix2 p q))
  refine biasRelu_block_point _ _ (V c main_v17) (V c main_arg3) p q _ ?_ ?_ ?_
  · -- the first operand's block at point t lies where the result's block does
    show V c main_v17 (((cfg1.win 0).blk t).view.emb (ix2 p q)) = V c main_v17 (((cfg1.win 2).blk t).view.emb (ix2 p q))
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  · -- the row vector's block is the whole vector
    show V c main_arg3 (((cfg1.win 1).blk t).view.emb (ix1 q)) = V c main_arg3 (ix1 q)
    refine congrArg _ (funext fun a => Fin.ext ?_)
    match a with
    | ⟨0, _⟩ => show win1_1.index t (0 : Fin 1) * 128 + 1 * q.val = q.val; omega
  · show win1_2.index t (1 : Fin 2) * 128 + 1 * q.val = q.val
    omega

/-- An index of the array is in point t's block iff each coordinate is in the block's range on its axis. -/
theorem mem_block_iff (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v18).slice (win1_2.rect t)).set ↔ _
  rw [View.set_slice_whole, Rect.mem_set_unit]
  exact Iff.rfl

/-- The ten row blocks fill the array: row r lies in the block of point r / 5000. -/
theorem blocks_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < grid1.N := by omega
  obtain ⟨e0, e1, e2, e3, e4⟩ := block_indices ⟨(i 0).val / 5000, ht⟩
  have e3' : win1_2.index ⟨(i 0).val / 5000, ht⟩ (0 : Fin 2) = (i 0).val / 5000 := e3
  refine ⟨⟨(i 0).val / 5000, ht⟩, flush1_2 _, ?_⟩
  rw [mem_block_iff]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

end BiasRelu

theorem arr1 (c : Dev nD) :
    (dat1 (F := Ideal) V c).arrAt 2 cfg1.N = Cert.Gcn.biasRelu (V c main_v17) (V c main_arg3) := by
  exact (dat1 (F := Ideal) V c).arrAt_eq_of_cover 2 _ (fun t _ => BiasRelu.written_block_eq V c t) BiasRelu.blocks_cover

end Cert.KernelIdeal.RegionValue

end
-- ==== Proof.Region2.lean ====
import proofs.«144000_j27109833572875_1_alg».proof.Proof.Gen.KernelIdeal.Frame
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! The second layer's product: the region's row operand times the second weight matrix. -/
namespace HiddenProduct

/-! ## The matrix unit's product of one row block, entry by entry -/

/-- The left operand is read at the result's row … -/
theorem prodL_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and at the shared coordinate. -/
theorem prodL_shared (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- The right operand is read at the shared coordinate … -/
theorem prodR_shared (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- … and at the result's column. -/
theorem prodR_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (p, q) of the body's result is the sum over the shared coordinate of the products of row p of the
    left block and column q of the right block: the reshaping of the left block to its own shape and the rounding
    to the narrower format are the identity on the extended reals, and the product accumulates into zero. -/
theorem blockProd_apply (x0 : Vec Ideal S5000x128 .f32) (x1 : Vec Ideal S128x40 .f32) (p : Fin 5000) (q : Fin 40) :
    k2_pay1 (F := Ideal) x0 x1 (ix2 p q) = ∑ k : Fin 128, x0 (ix2 p k) * x1 (ix2 k q) := by
  unfold k2_pay1
  refine (Ideal.matmul_constant_zero_apply dot_S5000x128_S128x40_S5000x40_1_0_0_1_n_n none _ _ (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact prodL_row _ _
    | ⟨1, _⟩ => exact (prodL_shared _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (prodR_shared _ _).trans hk
    | ⟨1, _⟩ => exact prodR_col _ _)
  rw [el, er]
  show shapeCast S5000x128 x0 shapeCasts_S5000x128_S5000x128 (ix2 p k) * x1 (ix2 k q) = _
  rw [shapeCast_self]

/-! ## From the row blocks to the whole product -/

theorem off_zero : (![0, 0] : Fin 2 → Nat) = fun _ => 0 := funext fun a => by fin_cases a <;> rfl

/-- The block index maps at every point of the grid: point t reads row block t of the left matrix, the whole right
    matrix, and writes row block t of the result. -/
theorem rowBlock_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left matrix's block at point t is entry (5000 t + p, k) of the matrix. -/
theorem left_emb (t : Fin cfg2.N) (p : Fin 5000) (k : Fin 128) (r : Fin 50000) (hr : r.val = t.val * 5000 + p.val) :
    ((cfg2.win 0).blk t).view.emb (ix2 p k : S5000x128.Idx) = (ix2 r k : S50000x128.Idx) := by
  obtain ⟨e0, e1, -⟩ := rowBlock_idx t
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The right matrix's block at every point is the whole matrix. -/
theorem right_emb (t : Fin cfg2.N) (k : Fin 128) (q : Fin 40) :
    ((cfg2.win 1).blk t).view.emb (ix2 k q : S128x40.Idx) = (ix2 k q : S128x40.Idx) := by
  obtain ⟨-, -, e2, e3, -⟩ := rowBlock_idx t
  funext a; apply Fin.ext
  match a with
  | ⟨0, _⟩ => show win2_1.index t (0 : Fin 2) * 128 + 1 * k.val = k.val; omega
  | ⟨1, _⟩ => show win2_1.index t (1 : Fin 2) * 40 + 1 * q.val = q.val; omega

/-- Entry (p, q) of the result's block at point t is entry (5000 t + p, q) of the result. -/
theorem out_emb (t : Fin cfg2.N) (p : Fin 5000) (q : Fin 40) (r : Fin 50000) (hr : r.val = t.val * 5000 + p.val) :
    ((cfg2.win 2).blk t).view.emb (ix2 p q : S5000x40.Idx) = (ix2 r q : S50000x40.Idx) := by
  obtain ⟨-, -, -, -, e4, e5⟩ := rowBlock_idx t
  funext a; apply Fin.ext
  match a with
  | ⟨0, _⟩ => show win2_2.index t (0 : Fin 2) * 5000 + 1 * p.val = r.val; omega
  | ⟨1, _⟩ => show win2_2.index t (1 : Fin 2) * 40 + 1 * q.val = q.val; omega

/-- What point t writes back is row block t of the product of the two matrices as the region finds them. -/
theorem rowBlock_eq (c : Dev nD) (t : Fin cfg2.N) :
    (dat2 (F := Ideal) V c).flushed 2 t
      = ((cfg2.win 2).blk t).view.read (Elt Ideal) (Cert.Gcn.dense (V c main_v18) (V c main_arg4)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x40) off_zero]
  funext j
  obtain ⟨p, q, rfl⟩ : ∃ (p : Fin 5000) (q : Fin 40), j = (ix2 p q : S5000x40.Idx) := ⟨j 0, j 1, eq_ix2 j⟩
  have ht : t.val < 10 := lt_of_lt_of_eq t.isLt N_2
  have hr : t.val * 5000 + p.val < 50000 := by have := p.isLt; omega
  show k2_pay1 (F := Ideal) (iblk2 V c 0 t) (iblk2 V c 1 t) (ix2 p q)
      = Cert.Gcn.dense (V c main_v18) (V c main_arg4) (((cfg2.win 2).blk t).view.emb (ix2 p q : S5000x40.Idx))
  rw [out_emb t p q ⟨t.val * 5000 + p.val, hr⟩ rfl, Cert.Gcn.dense_apply]
  refine (blockProd_apply (iblk2 V c 0 t) (iblk2 V c 1 t) p q).trans ?_
  refine Finset.sum_congr rfl fun k _ => ?_
  exact congrArg₂ (fun a b : EReal => a * b)
    (congrArg (V c main_v18) (left_emb t p k ⟨t.val * 5000 + p.val, hr⟩ rfl))
    (congrArg (V c main_arg4) (right_emb t k q))

/-- An index of the result is in point t's block iff each coordinate is in the block's range on its axis. -/
theorem mem_rowBlock (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v19).slice (win2_2.rect t)).set ↔ _
  rw [View.set_slice_whole, Rect.mem_set_unit]
  exact Iff.rfl

/-- Row r of the result lies in the block of point r / 5000. -/
theorem rows_covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : (i 0).val / 5000 < grid2.N := by rw [N_2]; omega
  refine ⟨⟨(i 0).val / 5000, hN⟩, flush2_2 _, ?_⟩
  rw [mem_rowBlock]
  obtain ⟨-, -, -, -, e4, e5⟩ := rowBlock_idx ⟨(i 0).val / 5000, hN⟩
  have e4' : win2_2.index ⟨(i 0).val / 5000, hN⟩ (0 : Fin 2) = (i 0).val / 5000 := e4
  intro a
  match a with
  | ⟨0, _⟩ => show win2_2.index ⟨(i 0).val / 5000, hN⟩ (0 : Fin 2) * 5000 ≤ (i 0).val ∧ (i 0).val < win2_2.index ⟨(i 0).val / 5000, hN⟩ (0 : Fin 2) * 5000 + 5000; omega
  | ⟨1, _⟩ => show win2_2.index ⟨(i 0).val / 5000, hN⟩ (1 : Fin 2) * 40 ≤ (i 1).val ∧ (i 1).val < win2_2.index ⟨(i 0).val / 5000, hN⟩ (1 : Fin 2) * 40 + 40; omega

end HiddenProduct

/-- The region leaves in its result array the whole product of its row operand and the second weight matrix. -/
theorem arr2 (c : Dev nD) :
    (dat2 (F := Ideal) V c).arrAt 2 cfg2.N = Cert.Gcn.dense (V c main_v18) (V c main_arg4) :=
  (dat2 (F := Ideal) V c).arrAt_eq_of_cover 2 (Cert.Gcn.dense (V c main_v18) (V c main_arg4))
    (fun t _ => HiddenProduct.rowBlock_eq V c t) HiddenProduct.rows_covered

end Cert.KernelIdeal.RegionValue

end
-- ==== Proof.Region3.lean ====
import proofs.«144000_j27109833572875_1_alg».proof.Proof.Gen.KernelIdeal.Frame
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-! ## The body's arithmetic on one block of 5000 rows, entry by entry -/

/-- The block with the row vector added: entry (p, q) is `x[p, q] + b[q]`. -/
theorem blockBiased_apply (x : FVec Ideal S5000x40 .f32) (b : FVec Ideal S40 .f32)
    (h1 : S5000x40.ShapeCasts S5000x40) (h2 : S40.ShapeCasts S1x40) (h3 : S1x40.Broadcasts S5000x40)
    (p : Fin 5000) (q : Fin 40) :
    addf (shapeCast S5000x40 x h1) (broadcastTo S5000x40 (shapeCast S1x40 b h2) h3) (ix2 p q)
      = Cert.Gcn.biased x b p q := by
  rw [addf_apply, shapeCast_self, broadcastTo_1b_ab_apply, shapeCast_a_1a_apply]
  rfl

/-- The maximum over the columns, from `-∞`, read at row `p`: the fold of `max` over the row's 40 entries. -/
theorem blockRowMax_apply (v : FVec Ideal S5000x40 .f32) (h : S5000x40.Reduces [1] S5000)
    (hφ : FKind.Formats .f32) (hacc : (0xFF800000#32 : BitVec 32) = FKind.maximumf.neutral .f32 hφ) (p : Fin 5000) :
    multiReduction (F := Ideal) .maximumf [1] S5000 v 0xFF800000#32 h hφ hacc (ix1 p)
      = (Finset.univ : Finset (Fin 40)).fold max (Ideal.ofBits .f32 0xFF800000#32) (fun q => v (ix2 p q)) := by
  refine (Ideal.multiReduction_maximumf_single v 0xFF800000#32 h hφ hacc (ix1 p)).trans ?_
  have e : (v ∘ h.lift (ix1 p)) = fun q : Fin 40 => v (ix2 p q) := by
    funext q
    refine congrArg v (funext fun a => Fin.ext ?_)
    match a with
    | ⟨0, _⟩ => rfl
    | ⟨1, _⟩ => rfl
  rw [e]
  rfl

/-- The sum over the columns read at row `p`: the sum of the row's 40 entries. -/
theorem blockRowSum_apply (v : FVec Ideal S5000x40 .f32) (h : S5000x40.Reduces [1] S5000)
    (hφ : FKind.Formats .f32) (hacc : (0x00000000#32 : BitVec 32) = FKind.add.neutral .f32 hφ) (p : Fin 5000) :
    multiReduction (F := Ideal) .add [1] S5000 v 0x00000000#32 h hφ hacc (ix1 p) = ∑ q : Fin 40, v (ix2 p q) := by
  refine (Ideal.multiReduction_add_single v 0x00000000#32 h hφ hacc (ix1 p)).trans ?_
  refine Finset.sum_congr rfl fun q _ => ?_
  refine congrArg v (funext fun a => Fin.ext ?_)
  match a with
  | ⟨0, _⟩ => rfl
  | ⟨1, _⟩ => rfl

/-- A per-row value spread over the row's columns: entry (p, q) is the value of row `p`. -/
theorem blockColumn_apply (w : FVec Ideal S5000 .f32) (h1 : S5000.ShapeCasts S5000x1) (h2 : S5000x1.Broadcasts S5000x40)
    (p : Fin 5000) (q : Fin 40) :
    broadcastTo S5000x40 (shapeCast S5000x1 w h1) h2 (ix2 p q) = w (ix1 p) := by
  rw [Cert.LibLayout.broadcastTo_a1_ab_apply, Cert.LibLayout.shapeCast_a_a1_apply]

/-- The logarithm of a per-row value spread over the row's columns. -/
theorem blockLogColumn_apply (w : FVec Ideal S5000 .f32) (h1 : S5000.ShapeCasts S5000x1) (h2 : S5000x1.Broadcasts S5000x40)
    (p : Fin 5000) (q : Fin 40) :
    broadcastTo S5000x40 (log (shapeCast S5000x1 w h1)) h2 (ix2 p q) = Ideal.log (w (ix1 p)) := by
  rw [Cert.LibLayout.broadcastTo_a1_ab_apply]
  show Ideal.log (shapeCast S5000x1 w h1 (ix2 p (0 : Fin 1))) = _
  rw [Cert.LibLayout.shapeCast_a_a1_apply]

/-- THE PAYLOAD AT AN ENTRY: on a block `x` of 5000 rows and the row vector `b`, entry (p, q) of what the body stores is
    the shifted entry of row `p` less that row's log-sum-exp. -/
theorem payload_apply (x : FVec Ideal S5000x40 .f32) (b : FVec Ideal S40 .f32) (p : Fin 5000) (q : Fin 40) :
    k3_pay1 (F := Ideal) x b (ix2 p q) = Cert.Gcn.shifted x b p q - Cert.Gcn.rowLse x b p := by
  unfold k3_pay1
  -- the shifted block: the biased block less its row maximum spread over the columns
  have hs : ∀ q' : Fin 40,
      subf (addf (shapeCast S5000x40 x shapeCasts_S5000x40_S5000x40)
            (broadcastTo S5000x40 (shapeCast S1x40 b shapeCasts_S40_S1x40) broadcasts_S1x40_S5000x40))
          (broadcastTo S5000x40 (shapeCast S5000x1
            (multiReduction (F := Ideal) .maximumf [1] S5000
              (addf (shapeCast S5000x40 x shapeCasts_S5000x40_S5000x40)
                (broadcastTo S5000x40 (shapeCast S1x40 b shapeCasts_S40_S1x40) broadcasts_S1x40_S5000x40))
              0xFF800000#32 reduces_S5000x40_S5000 (.inl rfl) rfl) shapeCasts_S5000_S5000x1) broadcasts_S5000x1_S5000x40)
          (ix2 p q') = Cert.Gcn.shifted x b p q' := by
    intro q'
    rw [subf_apply, blockColumn_apply, blockBiased_apply]
    refine congrArg (fun m => Cert.Gcn.biased x b p q' - m) ?_
    refine (blockRowMax_apply _ _ _ _ p).trans ?_
    unfold Cert.Gcn.rowMax
    simp only [blockBiased_apply]
  show _ - _ = _
  rw [hs q, blockLogColumn_apply]
  unfold Cert.Gcn.rowLse
  refine congrArg (fun s => Cert.Gcn.shifted x b p q - Ideal.log s) ?_
  refine (blockRowSum_apply _ _ _ _ p).trans (Finset.sum_congr rfl fun q' _ => ?_)
  show Ideal.exp _ = _
  rw [hs q']

/-! ## A block's rows are the array's rows -/

/-- The row functions of the specification read only their row: when row `p` of `x` is row `r` of `H`, entry by entry,
    and the row vectors agree, the log-softmax of `x`'s row `p` is that of `H`'s row `r`. -/
theorem logSoftmax_row_congr {m n d : Nat} (x : FVec Ideal ⟨2, ![m, d]⟩ .f32) (b' : FVec Ideal ⟨1, ![d]⟩ .f32)
    (H : FVec Ideal ⟨2, ![n, d]⟩ .f32) (b : FVec Ideal ⟨1, ![d]⟩ .f32) (p : Fin m) (r : Fin n)
    (hx : ∀ q : Fin d, x (ix2 p q) = H (ix2 r q)) (hb : ∀ q : Fin d, b' (ix1 q) = b (ix1 q)) (q : Fin d) :
    Cert.Gcn.shifted x b' p q - Cert.Gcn.rowLse x b' p = Cert.Gcn.shifted H b r q - Cert.Gcn.rowLse H b r := by
  have hbi : ∀ q' : Fin d, Cert.Gcn.biased x b' p q' = Cert.Gcn.biased H b r q' := fun q' => by
    unfold Cert.Gcn.biased; rw [hx, hb]
  have hm : Cert.Gcn.rowMax x b' p = Cert.Gcn.rowMax H b r :=
    congrArg ((Finset.univ : Finset (Fin d)).fold max (Ideal.ofBits .f32 0xFF800000#32)) (funext hbi)
  have hsh : ∀ q' : Fin d, Cert.Gcn.shifted x b' p q' = Cert.Gcn.shifted H b r q' := fun q' => by
    unfold Cert.Gcn.shifted; rw [hbi, hm]
  have hl : Cert.Gcn.rowLse x b' p = Cert.Gcn.rowLse H b r := by
    unfold Cert.Gcn.rowLse
    exact congrArg Ideal.log (Finset.sum_congr rfl fun q' _ => by rw [hsh])
  rw [hsh, hl]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided once over the grid: at point `t` the matrix windows sit at block row `t`, block
    column 0, and the row vector's window at its one block. -/
theorem blockIndex_facts : ∀ t : Fin cfg3.N, win3_2.index t (0 : Fin 2) = t.val ∧ win3_2.index t (1 : Fin 2) = 0
    ∧ win3_0.index t (0 : Fin 2) = t.val ∧ win3_0.index t (1 : Fin 2) = 0 ∧ win3_1.index t (0 : Fin 1) = 0 :=
  (by decide +kernel : ∀ t : Fin grid3.N, _)

variable (V : (c : Dev nD) → (b : Ref sig .tc) → Buf (Elt Ideal) ((c : Thread nD τ).loc b))

/-- WHAT POINT `t` WRITES BACK is block `t` of the row-wise log-softmax of the two arrays as the region finds them. -/
theorem flushed_eq_logSoftmax (c : Dev nD) (t : Fin cfg3.N) :
    (dat3 (F := Ideal) V c).flushed 2 t
      = ((cfg3.win 2).blk t).view.read (Elt Ideal) (Cert.Gcn.biasLogSoftmax (V c main_v36) (V c main_arg5)) := by
  show (cfg3.win 2).cut (grid3.coords t) ((dat3 V c).after 2 t) = _
  rw [after3_2]
  unfold out3_2
  rw [View.canon_unit_zero zeros2]
  simp only [View.ld_unit_zero (S := S5000x40) zeros2, View.ld_unit_zero (S := S40) zeros1]
  funext j
  obtain ⟨p, q, rfl⟩ : ∃ (p : Fin 5000) (q : Fin 40), j = ix2 p q := ⟨j 0, j 1, eq_ix2 j⟩
  obtain ⟨e20, e21, e00, e01, e10⟩ := blockIndex_facts t
  have ht : t.val < 10 := by have h : t.val < grid3.N := t.isLt; rw [N_3] at h; exact h
  have hr : t.val * 5000 + p.val < 50000 := by have := p.isLt; omega
  -- the entry's place in the array: row t * 5000 + p, column q
  have hemb : ((cfg3.win 2).blk t).view.emb (ix2 p q) = ix2 (⟨t.val * 5000 + p.val, hr⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 40 + 1 * q.val = q.val; omega
  -- row p of the matrix block is row t * 5000 + p of the array, and the vector's block is the vector
  have hx : ∀ q' : Fin 40, iblk3 V c 0 t (ix2 p q') = V c main_v36 (ix2 (⟨t.val * 5000 + p.val, hr⟩ : Fin 50000) q') := by
    intro q'
    show V c main_v36 (((cfg3.win 0).blk t).view.emb (ix2 p q')) = _
    refine congrArg (V c main_v36) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * q'.val = q'.val; omega
  have hb : ∀ q' : Fin 40, iblk3 V c 1 t (ix1 q') = V c main_arg5 (ix1 q') := by
    intro q'
    show V c main_arg5 (((cfg3.win 1).blk t).view.emb (ix1 q')) = _
    refine congrArg (V c main_arg5) (funext fun a => Fin.ext ?_)
    match a with
    | ⟨0, _⟩ => show win3_1.index t (0 : Fin 1) * 40 + 1 * q'.val = q'.val; omega
  show k3_pay1 (F := Ideal) (iblk3 V c 0 t) (iblk3 V c 1 t) (ix2 p q)
    = Cert.Gcn.biasLogSoftmax (V c main_v36) (V c main_arg5) (((cfg3.win 2).blk t).view.emb (ix2 p q))
  rw [hemb, Cert.Gcn.biasLogSoftmax_apply]
  refine (payload_apply (iblk3 V c 0 t) (iblk3 V c 1 t) p q).trans ?_
  exact logSoftmax_row_congr (iblk3 V c 0 t) (iblk3 V c 1 t) (V c main_v36) (V c main_arg5) p _ hx hb q

/-- An entry of the array is in point `t`'s block iff each coordinate is in the block's range on its axis. -/
theorem mem_block (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v37).slice (win3_2.rect t)).set ↔ _
  rw [View.set_slice_whole, Rect.mem_set_unit]
  exact Iff.rfl

/-- Every entry of the array is in some point's block: row `r` in the block of point `r / 5000`. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : (i 0).val / 5000 < cfg3.N := by show _ < grid3.N; rw [N_3]; omega
  obtain ⟨e20, e21, -⟩ := blockIndex_facts ⟨(i 0).val / 5000, hN⟩
  refine ⟨⟨(i 0).val / 5000, hN⟩, flush3_2 _, ?_⟩
  rw [mem_block]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, hN⟩ (1 : Fin 2) * 40 ≤ (i 1).val
      ∧ (i 1).val < win3_2.index ⟨(i 0).val / 5000, hN⟩ (1 : Fin 2) * 40 + 40
    rw [e21]; omega

theorem arr3 (c : Dev nD) :
    (dat3 (F := Ideal) V c).arrAt 2 cfg3.N = Cert.Gcn.biasLogSoftmax (V c main_v36) (V c main_arg5) :=
  (dat3 (F := Ideal) V c).arrAt_eq_of_cover 2 (Cert.Gcn.biasLogSoftmax (V c main_v36) (V c main_arg5))
    (fun t _ => flushed_eq_logSoftmax V c t) covered

end Cert.KernelIdeal.RegionValue

end
-- ==== Proof.KernelValue.lean ====
/-
  The idealized kernel program's result array as one function of the argument arrays: the contents of the
  TensorCore's buffers are followed through @main's six segments. Each pallas_call leaves its result array at its
  stage's function of the arrays it reads (the product, the bias with the positive part, the second product, the bias
  with the log-softmax), each host stretch leaves the aggregated array at the edge aggregation of the array before it,
  and the arrays a segment does not write pass through unchanged; so the last boundary holds the composition of the
  six stages applied to the arguments.
-/
import proofs.«144000_j27109833572875_1_alg».proof.Proof.Gen.KernelIdeal.Frame
import proofs.«144000_j27109833572875_1_alg».proof.Proof.Spec
import proofs.«144000_j27109833572875_1_alg».proof.Proof.Aggregate
import proofs.«144000_j27109833572875_1_alg».proof.Proof.Region0
import proofs.«144000_j27109833572875_1_alg».proof.Proof.Region1
import proofs.«144000_j27109833572875_1_alg».proof.Proof.Region2
import proofs.«144000_j27109833572875_1_alg».proof.Proof.Region3

set_option maxRecDepth 16384

noncomputable section

namespace Cert.KernelIdeal.ChainValue

open Idealize.ShloMosaic Idealize.ShloMosaic.TcCoe Idealize.ShloMosaic.Tactic
open Idealize.SL Idealize.SL.Sem
open Cert.KernelIdeal Cert.KernelIdeal.Gen Cert.KernelIdeal.Agg

/-! ## The two host stretches, from any contents -/

section Host
variable {F : FTy → Type} [FloatOps F] (W : Valuation τ sig (Elt F))

set_option maxHeartbeats 4000000 in
theorem host1_v17 : StableHlo.after hostOps1 W (Proc.devRef .tc main_v17)
    = agg128 (W (Proc.devRef .tc main_v0)) (W (Proc.devRef .tc main_arg1)) (W (Proc.devRef .tc main_arg6)) := by
  unfold agg128 dstIdx wrapIdx srcIdx; after_results_simp; rfl

theorem host1_arg1 : StableHlo.after hostOps1 W (Proc.devRef .tc main_arg1) = W (Proc.devRef .tc main_arg1) := by after_results
theorem host1_arg3 : StableHlo.after hostOps1 W (Proc.devRef .tc main_arg3) = W (Proc.devRef .tc main_arg3) := by after_results
theorem host1_arg4 : StableHlo.after hostOps1 W (Proc.devRef .tc main_arg4) = W (Proc.devRef .tc main_arg4) := by after_results
theorem host1_arg5 : StableHlo.after hostOps1 W (Proc.devRef .tc main_arg5) = W (Proc.devRef .tc main_arg5) := by after_results
theorem host1_arg6 : StableHlo.after hostOps1 W (Proc.devRef .tc main_arg6) = W (Proc.devRef .tc main_arg6) := by after_results

set_option maxHeartbeats 4000000 in
theorem host3_v36 : StableHlo.after hostOps3 W (Proc.devRef .tc main_v36)
    = agg40 (W (Proc.devRef .tc main_v19)) (W (Proc.devRef .tc main_arg1)) (W (Proc.devRef .tc main_arg6)) := by
  unfold agg40 dstIdx wrapIdx srcIdx; after_results_simp; rfl

theorem host3_arg5 : StableHlo.after hostOps3 W (Proc.devRef .tc main_arg5) = W (Proc.devRef .tc main_arg5) := by after_results

end Host

/-! ## The boundaries' contents -/

variable (m : (ℓ : Loc nD τ sig) → Buf (Elt Ideal) ℓ) (ρ : Dev nD → PrngReg)

/-- After the first pallas_call: the product of the node features and the first weights. -/
theorem W1_v0 (c : Dev nD) : W1 m ρ c (Proc.devRef .tc main_v0)
    = Cert.Gcn.dense (m ((c : Thread nD τ).loc main_arg0)) (m ((c : Thread nD τ).loc main_arg2)) :=
  (W1_arr m ρ c 2).trans (RegionValue.arr0 (V0 m ρ) c)

theorem W1_arg1 (c : Dev nD) : W1 m ρ c (Proc.devRef .tc main_arg1) = m ((c : Thread nD τ).loc main_arg1) := W1_of_ne m ρ c main_arg1 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)

/-- After the first host stretch: the aggregation of that product over the edges. -/
theorem W2_v17 (c : Dev nD) : W2 m ρ c (Proc.devRef .tc main_v17)
    = agg128 (Cert.Gcn.dense (m ((c : Thread nD τ).loc main_arg0)) (m ((c : Thread nD τ).loc main_arg2)))
        (m ((c : Thread nD τ).loc main_arg1)) (m ((c : Thread nD τ).loc main_arg6)) := by
  show StableHlo.after hostOps1 (W1 m ρ c) (Proc.devRef .tc main_v17) = _
  rw [host1_v17, W1_v0, W1_arg1, W1_arg6]

theorem W2_arg1 (c : Dev nD) : W2 m ρ c (Proc.devRef .tc main_arg1) = m ((c : Thread nD τ).loc main_arg1) := (host1_arg1 _).trans (W1_arg1 m ρ c)
theorem W2_arg3 (c : Dev nD) : W2 m ρ c (Proc.devRef .tc main_arg3) = m ((c : Thread nD τ).loc main_arg3) := (host1_arg3 _).trans (W1_arg3 m ρ c)
theorem W2_arg4 (c : Dev nD) : W2 m ρ c (Proc.devRef .tc main_arg4) = m ((c : Thread nD τ).loc main_arg4) := (host1_arg4 _).trans (W1_arg4 m ρ c)
theorem W2_arg5 (c : Dev nD) : W2 m ρ c (Proc.devRef .tc main_arg5) = m ((c : Thread nD τ).loc main_arg5) := (host1_arg5 _).trans (W1_arg5 m ρ c)
theorem W2_arg6 (c : Dev nD) : W2 m ρ c (Proc.devRef .tc main_arg6) = m ((c : Thread nD τ).loc main_arg6) := (host1_arg6 _).trans (W1_arg6 m ρ c)

/-- The first layer's output, as a function of the arguments. -/
def layer1 (c : Dev nD) : FVec Ideal S50000x128 .f32 :=
  Cert.Gcn.biasRelu
    (agg128 (Cert.Gcn.dense (m ((c : Thread nD τ).loc main_arg0)) (m ((c : Thread nD τ).loc main_arg2)))
      (m ((c : Thread nD τ).loc main_arg1)) (m ((c : Thread nD τ).loc main_arg6)))
    (m ((c : Thread nD τ).loc main_arg3))

/-- After the second pallas_call: the bias and the positive part. -/
theorem W3_v18 (c : Dev nD) : W3 m ρ c (Proc.devRef .tc main_v18) = layer1 m c := by
  refine (W3_arr m ρ c 2).trans ((RegionValue.arr1 (V2 m ρ) c).trans ?_)
  show Cert.Gcn.biasRelu (W2 m ρ c (Proc.devRef .tc main_v17)) (W2 m ρ c (Proc.devRef .tc main_arg3)) = _
  rw [W2_v17, W2_arg3]; rfl

theorem W3_arg1 (c : Dev nD) : W3 m ρ c (Proc.devRef .tc main_arg1) = m ((c : Thread nD τ).loc main_arg1) := (W3_of_ne m ρ c main_arg1 (by decide)).trans (W2_arg1 m ρ c)
theorem W3_arg4 (c : Dev nD) : W3 m ρ c (Proc.devRef .tc main_arg4) = m ((c : Thread nD τ).loc main_arg4) := (W3_of_ne m ρ c main_arg4 (by decide)).trans (W2_arg4 m ρ c)
theorem W3_arg5 (c : Dev nD) : W3 m ρ c (Proc.devRef .tc main_arg5) = m ((c : Thread nD τ).loc main_arg5) := (W3_of_ne m ρ c main_arg5 (by decide)).trans (W2_arg5 m ρ c)
theorem W3_arg6 (c : Dev nD) : W3 m ρ c (Proc.devRef .tc main_arg6) = m ((c : Thread nD τ).loc main_arg6) := (W3_of_ne m ρ c main_arg6 (by decide)).trans (W2_arg6 m ρ c)

/-- After the third pallas_call: the product with the second weights. -/
theorem W4_v19 (c : Dev nD) : W4 m ρ c (Proc.devRef .tc main_v19)
    = Cert.Gcn.dense (layer1 m c) (m ((c : Thread nD τ).loc main_arg4)) := by
  refine (W4_arr m ρ c 2).trans ((RegionValue.arr2 (V3 m ρ) c).trans ?_)
  show Cert.Gcn.dense (W3 m ρ c (Proc.devRef .tc main_v18)) (W3 m ρ c (Proc.devRef .tc main_arg4)) = _
  rw [W3_v18, W3_arg4]

theorem W4_arg1 (c : Dev nD) : W4 m ρ c (Proc.devRef .tc main_arg1) = m ((c : Thread nD τ).loc main_arg1) := (W4_of_ne m ρ c main_arg1 (by decide)).trans (W3_arg1 m ρ c)
theorem W4_arg5 (c : Dev nD) : W4 m ρ c (Proc.devRef .tc main_arg5) = m ((c : Thread nD τ).loc main_arg5) := (W4_of_ne m ρ c main_arg5 (by decide)).trans (W3_arg5 m ρ c)
theorem W4_arg6 (c : Dev nD) : W4 m ρ c (Proc.devRef .tc main_arg6) = m ((c : Thread nD τ).loc main_arg6) := (W4_of_ne m ρ c main_arg6 (by decide)).trans (W3_arg6 m ρ c)

/-- The kernel program's result, as a function of the arguments. -/
def result (c : Dev nD) : FVec Ideal S50000x40 .f32 :=
  Cert.Gcn.biasLogSoftmax
    (agg40 (Cert.Gcn.dense (layer1 m c) (m ((c : Thread nD τ).loc main_arg4)))
      (m ((c : Thread nD τ).loc main_arg1)) (m ((c : Thread nD τ).loc main_arg6)))
    (m ((c : Thread nD τ).loc main_arg5))

/-- After the second host stretch: the aggregation of the second product. -/
theorem W5_v36 (c : Dev nD) : W5 m ρ c (Proc.devRef .tc main_v36)
    = agg40 (Cert.Gcn.dense (layer1 m c) (m ((c : Thread nD τ).loc main_arg4)))
        (m ((c : Thread nD τ).loc main_arg1)) (m ((c : Thread nD τ).loc main_arg6)) := by
  show StableHlo.after hostOps3 (W4 m ρ c) (Proc.devRef .tc main_v36) = _
  rw [host3_v36, W4_v19, W4_arg1, W4_arg6]

theorem W5_arg5 (c : Dev nD) : W5 m ρ c (Proc.devRef .tc main_arg5) = m ((c : Thread nD τ).loc main_arg5) := (host3_arg5 _).trans (W4_arg5 m ρ c)

/-- After the last pallas_call: the result array holds the whole composition. -/
theorem W6_v37 (c : Dev nD) : W6 m ρ c (Proc.devRef .tc main_v37) = result m c := by
  refine (W6_arr m ρ c 2).trans ((RegionValue.arr3 (V5 m ρ) c).trans ?_)
  show Cert.Gcn.biasLogSoftmax (W5 m ρ c (Proc.devRef .tc main_v36)) (W5 m ρ c (Proc.devRef .tc main_arg5)) = _
  rw [W5_v36, W5_arg5]; rfl

end Cert.KernelIdeal.ChainValue

end
-- ==== Proof.RefStages.lean ====
/-
  The reference program's stages as pure functions of whole arrays, in the host operations' own spelling: the two
  products, the bias with the positive part, the edge aggregation, and the bias with the row-wise log-softmax
  (a row maximum taken from -∞ and joined once more with -∞, the shift by it, the exponentials' row sum from 0, its
  logarithm, the second shift).
-/
import proofs.«144000_j27109833572875_1_alg».proof.Proof.Gen.ReferenceIdeal

noncomputable section

namespace Cert.ReferenceIdeal.Stage

open Idealize.ShloMosaic Cert.ReferenceIdeal Cert.ReferenceIdeal.Facts₀ Cert.ReferenceIdeal.Facts

variable {F : FTy → Type} [FloatOps F]

/-- The first layer's product `X · W1`. -/
def dense1 (X : (⟨S50000x512, .f32⟩ : BufTy).Contents (Elt F)) (W : (⟨S512x128, .f32⟩ : BufTy).Contents (Elt F)) :
    (⟨S50000x128, .f32⟩ : BufTy).Contents (Elt F) :=
  Host.dotGeneral dot_S50000x512_S512x128_S50000x128_1_0_0_1_n_n none X W

/-- The second layer's product `H · W2`. -/
def dense2 (H : (⟨S50000x128, .f32⟩ : BufTy).Contents (Elt F)) (W : (⟨S128x40, .f32⟩ : BufTy).Contents (Elt F)) :
    (⟨S50000x40, .f32⟩ : BufTy).Contents (Elt F) :=
  Host.dotGeneral dot_S50000x128_S128x40_S50000x40_1_0_0_1_n_n none H W

/-- The bias row added to every row, then the maximum with zero. -/
def biasRelu (H : (⟨S50000x128, .f32⟩ : BufTy).Contents (Elt F)) (b : (⟨S128, .f32⟩ : BufTy).Contents (Elt F)) :
    (⟨S50000x128, .f32⟩ : BufTy).Contents (Elt F) :=
  maximumf
    (addf H (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The bias row added to every row of the second layer. -/
def lsmBiased (H : (⟨S50000x40, .f32⟩ : BufTy).Contents (Elt F)) (b : (⟨S40, .f32⟩ : BufTy).Contents (Elt F)) :
    (⟨S50000x40, .f32⟩ : BufTy).Contents (Elt F) :=
  addf H (broadcastInDim S50000x40 ![0, 1] bcast_S1x40_S50000x40_0_1 (broadcastInDim S1x40 ![1] bcast_S40_S1x40_1 b))

/-- Each row's maximum, taken from -∞ and joined once more with -∞. -/
def lsmMax (x : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf x (constant S_ .f32 0xFF800000#32) reducesTo_S50000x40_S50000_d1 h_S_)

/-- Every entry less its row's maximum. -/
def lsmShift (x : (⟨S50000x40, .f32⟩ : BufTy).Contents (Elt F)) : (⟨S50000x40, .f32⟩ : BufTy).Contents (Elt F) :=
  subf x (broadcastInDim S50000x40 ![0, 1] bcast_S50000x1_S50000x40_0_1 (broadcastInDim S50000x1 ![0] bcast_S50000_S50000x1_0 (lsmMax x)))

/-- The shifted entries less the logarithm of their exponentials' row sum. -/
def lsmOut (z : (⟨S50000x40, .f32⟩ : BufTy).Contents (Elt F)) : (⟨S50000x40, .f32⟩ : BufTy).Contents (Elt F) :=
  subf z (broadcastInDim S50000x40 ![0, 1] bcast_S50000x1_S50000x40_0_1
    (Host.log (broadcastInDim S50000x1 ![0] bcast_S50000_S50000x1_0
      (Host.reduceAdd (Host.exp z) (constant S_ .f32 0x00000000#32) reducesTo_S50000x40_S50000_d1 h_S_))))

/-- The bias with the row-wise log-softmax. -/
def biasLogSoftmax (H : (⟨S50000x40, .f32⟩ : BufTy).Contents (Elt F)) (b : (⟨S40, .f32⟩ : BufTy).Contents (Elt F)) :
    (⟨S50000x40, .f32⟩ : BufTy).Contents (Elt F) :=
  lsmOut (lsmShift (lsmBiased H b))

/-- Row 0 of the endpoint array: each edge's source node. -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the endpoint array: each edge's destination node. -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative index has the node count added once. -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 50000#32))) s

/-- The edge aggregation over rows of width 128. -/
def agg128 (h : (⟨S50000x128, .f32⟩ : BufTy).Contents (Elt F)) (ew : (⟨S1600000, .f32⟩ : BufTy).Contents (Elt F))
    (ei : (⟨S2x1600000, .i32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 (dstIdx ei))
    (mulf (Host.gather gather_S50000x128_S1600000x1_S1600000x128_1_0_n_n_0_1_1128 h
        (broadcastInDim S1600000x1 ![0] bcast_S1600000_S1600000x1_0 (wrapIdx (srcIdx ei))))
      (broadcastInDim S1600000x128 ![0, 1] bcast_S1600000x1_S1600000x128_0_1
        (broadcastInDim S1600000x1 ![0] bcast_S1600000_S1600000x1_0 ew)))

/-- The edge aggregation over rows of width 40. -/
def agg40 (h : (⟨S50000x40, .f32⟩ : BufTy).Contents (Elt F)) (ew : (⟨S1600000, .f32⟩ : BufTy).Contents (Elt F))
    (ei : (⟨S2x1600000, .i32⟩ : BufTy).Contents (Elt F)) : (⟨S50000x40, .f32⟩ : BufTy).Contents (Elt F) :=
  Host.scatterAdd scatter_S50000x40_S1600000x1_S1600000x40_1_0_0_1
    (broadcastInDim S50000x40 ![] bcast_S_S50000x40 (constant S_ .f32 0x00000000#32))
    (broadcastInDim S1600000x1 ![0] bcast_S1600000_S1600000x1_0 (dstIdx ei))
    (mulf (Host.gather gather_S50000x40_S1600000x1_S1600000x40_1_0_n_n_0_1_140 h
        (broadcastInDim S1600000x1 ![0] bcast_S1600000_S1600000x1_0 (wrapIdx (srcIdx ei))))
      (broadcastInDim S1600000x40 ![0, 1] bcast_S1600000x1_S1600000x40_0_1
        (broadcastInDim S1600000x1 ![0] bcast_S1600000_S1600000x1_0 ew)))

end Cert.ReferenceIdeal.Stage

end
-- ==== Proof.RefRun.lean ====
/-
  The reference program's run read back stage by stage. Its 66 host operations are cut into stretches — the first
  product, the first edge aggregation, the bias with the positive part, the second product, the second edge aggregation,
  and the bias with the log-softmax in four steps — and each stretch's result buffer is that stage's function of the
  buffers the stretch reads, whatever the contents it starts from; a buffer a stretch does not write keeps its contents.
  Composed, the result buffer of the whole run is the stages' composition applied to the argument arrays.
-/
import proofs.«144000_j27109833572875_1_alg».proof.Proof.RefOps
import proofs.«144000_j27109833572875_1_alg».proof.Proof.RefStages
import Idealize.ShloMosaic.Lib.Pipeline.Frame

set_option maxRecDepth 16384

noncomputable section

namespace Cert.ReferenceIdeal.StageRun

open Cert.ReferenceIdeal Cert.ReferenceIdeal.Gen Idealize.ShloMosaic Idealize.ShloMosaic.TcCoe Idealize.SL.Sem Idealize.ShloMosaic.StableHlo
open Cert.ReferenceIdeal.RunP (ops)

variable {F : FTy → Type} [FloatOps F]

/-- The first product. -/
abbrev opsA : List (HloOp τ sig (Elt F)) :=
  [ binary main_arg0 main_arg2 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)) ]
/-- The first edge aggregation. -/
abbrev opsB : List (HloOp τ sig (Elt F)) :=
  [ unary main_arg6 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg6 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v7 (broadcastInDim S1600000 ![] bcast_S_S1600000 : (⟨S_, .i32⟩ : BufTy).Contents (Elt F) → (⟨S1600000, .i32⟩ : BufTy).Contents (Elt F)),
    binary main_v2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v0 main_v10 main_v11 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v4 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]
/-- The bias with the positive part. -/
abbrev opsC : List (HloOp τ sig (Elt F)) :=
  [ unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v20) (TRef.of (T := ⟨S50000x128, .f32⟩) main_call0_v0) (TRef.of (T := ⟨S50000x128, .f32⟩) main_v21) maximumf ]
/-- The second product. -/
abbrev opsD : List (HloOp τ sig (Elt F)) :=
  [ binary main_v21 main_arg4 main_v22 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
/-- The second edge aggregation. -/
abbrev opsE : List (HloOp τ sig (Elt F)) :=
  [ unary main_arg6 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg6 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_1 (constantI S_ 32 0#32),
    unary main_c_1 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v22 main_v32 main_v33 ((fun x i => Host.gather gather_S50000x40_S1600000x1_S1600000x40_1_0_n_n_0_1_140 x i) : (⟨S50000x40, .f32⟩ : BufTy).Contents (Elt F) → (⟨S1600000x1, .i32⟩ : BufTy).Contents (Elt F) → (⟨S1600000x40, .f32⟩ : BufTy).Contents (Elt F)),
    unary main_arg1 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x40 ![0, 1] bcast_S1600000x1_S1600000x40_0_1 : (⟨S1600000x1, .f32⟩ : BufTy).Contents (Elt F) → (⟨S1600000x40, .f32⟩ : BufTy).Contents (Elt F)),
    binary main_v33 main_v35 main_v36 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v37 (broadcastInDim S50000x40 ![] bcast_S_S50000x40 : (⟨S_, .f32⟩ : BufTy).Contents (Elt F) → (⟨S50000x40, .f32⟩ : BufTy).Contents (Elt F)),
    unary main_v26 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S50000x40_S1600000x1_S1600000x40_1_0_0_1 x i u) : (⟨S50000x40, .f32⟩ : BufTy).Contents (Elt F) → (⟨S1600000x1, .i32⟩ : BufTy).Contents (Elt F) → (⟨S1600000x40, .f32⟩ : BufTy).Contents (Elt F) → (⟨S50000x40, .f32⟩ : BufTy).Contents (Elt F)) ]
/-- The second bias. -/
abbrev opsF1 : List (HloOp τ sig (Elt F)) :=
  [ unary main_arg5 main_v40 (broadcastInDim S1x40 ![1] bcast_S40_S1x40_1 : (⟨S40, .f32⟩ : BufTy).Contents (Elt F) → (⟨S1x40, .f32⟩ : BufTy).Contents (Elt F)),
    unary main_v40 main_v41 (broadcastInDim S50000x40 ![0, 1] bcast_S1x40_S50000x40_0_1 : (⟨S1x40, .f32⟩ : BufTy).Contents (Elt F) → (⟨S50000x40, .f32⟩ : BufTy).Contents (Elt F)),
    binary main_v39 main_v41 main_v42 (addf : (⟨S50000x40, .f32⟩ : BufTy).Contents (Elt F) → (⟨S50000x40, .f32⟩ : BufTy).Contents (Elt F) → (⟨S50000x40, .f32⟩ : BufTy).Contents (Elt F)) ]
/-- Each row's maximum, the reduction over a row being any function `g` of the array and the initial value. -/
abbrev opsF2 (g : (⟨S50000x40, .f32⟩ : BufTy).Contents (Elt F) → (⟨S_, .f32⟩ : BufTy).Contents (Elt F) → (⟨S50000, .f32⟩ : BufTy).Contents (Elt F)) :
    List (HloOp τ sig (Elt F)) :=
  [ TRef.nullary (TRef.of (T := ⟨S_, .f32⟩) main_call1_cst) (constant S_ .f32 0xFF800000#32),
    TRef.binary (TRef.of (T := ⟨S50000x40, .f32⟩) main_v42) (TRef.of (T := ⟨S_, .f32⟩) main_call1_cst) (TRef.of (T := ⟨S50000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]
/-- The shift by the row's maximum. -/
abbrev opsF3 : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v42) (TRef.of (T := ⟨S50000x40, .f32⟩) main_call1_v4) (TRef.of (T := ⟨S50000x40, .f32⟩) main_call1_v5) subf ]
/-- The shift by the logarithm of the exponentials' row sum. -/
abbrev opsF4 : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v43) subf ]

/-- The host's maximum over each row from an initial value. -/
abbrev rowMaxOp : (⟨S50000x40, .f32⟩ : BufTy).Contents (Elt F) → (⟨S_, .f32⟩ : BufTy).Contents (Elt F) → (⟨S50000, .f32⟩ : BufTy).Contents (Elt F) :=
  fun x v => Host.reduce FloatOps.maximumf x v reducesTo_S50000x40_S50000_d1 h_S_

theorem ops_eq : (ops : List (HloOp τ sig (Elt F)))
    = opsA ++ (opsB ++ (opsC ++ (opsD ++ (opsE ++ (opsF1 ++ (opsF2 rowMaxOp ++ (opsF3 ++ opsF4))))))) := rfl

variable (W : Valuation τ sig (Elt F))

/-! ## Each stretch's result -/

theorem afterA_v0 : after opsA W (Proc.devRef .tc main_v0)
    = Stage.dense1 (W (Proc.devRef .tc main_arg0)) (W (Proc.devRef .tc main_arg2)) := by
  unfold Stage.dense1; after_results

set_option maxHeartbeats 4000000 in
theorem afterB_v17 : after opsB W (Proc.devRef .tc main_v17)
    = Stage.agg128 (W (Proc.devRef .tc main_v0)) (W (Proc.devRef .tc main_arg1)) (W (Proc.devRef .tc main_arg6)) := by
  unfold Stage.agg128 Stage.dstIdx Stage.wrapIdx Stage.srcIdx; after_results_simp; rfl

theorem afterC_v21 : after opsC W (Proc.devRef .tc main_v21)
    = Stage.biasRelu (W (Proc.devRef .tc main_v17)) (W (Proc.devRef .tc main_arg3)) := by
  unfold Stage.biasRelu; after_results; rfl

theorem afterD_v22 : after opsD W (Proc.devRef .tc main_v22)
    = Stage.dense2 (W (Proc.devRef .tc main_v21)) (W (Proc.devRef .tc main_arg4)) := by
  unfold Stage.dense2; after_results

set_option maxHeartbeats 4000000 in
theorem afterE_v39 : after opsE W (Proc.devRef .tc main_v39)
    = Stage.agg40 (W (Proc.devRef .tc main_v22)) (W (Proc.devRef .tc main_arg1)) (W (Proc.devRef .tc main_arg6)) := by
  unfold Stage.agg40 Stage.dstIdx Stage.wrapIdx Stage.srcIdx; after_results_simp; rfl

theorem afterF1_v42 : after opsF1 W (Proc.devRef .tc main_v42)
    = Stage.lsmBiased (W (Proc.devRef .tc main_v39)) (W (Proc.devRef .tc main_arg5)) := by
  unfold Stage.lsmBiased; after_results

/-- Whatever the row reduction `g`, the stretch joins the broadcast initial value with `g` of the array. -/
theorem afterF2_of (g : (⟨S50000x40, .f32⟩ : BufTy).Contents (Elt F) → (⟨S_, .f32⟩ : BufTy).Contents (Elt F) → (⟨S50000, .f32⟩ : BufTy).Contents (Elt F)) :
    after (opsF2 g) W (Proc.devRef .tc main_call1_v2)
      = maximumf (broadcastInDim S50000 ![] bcast_S_S50000 (constant S_ .f32 0xFF800000#32))
          (g (W (Proc.devRef .tc main_v42)) (constant S_ .f32 0xFF800000#32)) := by
  after_results; rfl

theorem afterF2_max : after (opsF2 rowMaxOp) W (Proc.devRef .tc main_call1_v2) = Stage.lsmMax (W (Proc.devRef .tc main_v42)) :=
  afterF2_of W rowMaxOp

theorem keptF2_v42 (g : (⟨S50000x40, .f32⟩ : BufTy).Contents (Elt F) → (⟨S_, .f32⟩ : BufTy).Contents (Elt F) → (⟨S50000, .f32⟩ : BufTy).Contents (Elt F)) :
    after (opsF2 g) W (Proc.devRef .tc main_v42) = W (Proc.devRef .tc main_v42) := by after_results

theorem afterF3_shift : after opsF3 W (Proc.devRef .tc main_call1_v5)
    = subf (W (Proc.devRef .tc main_v42))
        (broadcastInDim S50000x40 ![0, 1] bcast_S50000x1_S50000x40_0_1
          (broadcastInDim S50000x1 ![0] bcast_S50000_S50000x1_0 (W (Proc.devRef .tc main_call1_v2)))) := by
  after_results; rfl

theorem afterF4_v43 : after opsF4 W (Proc.devRef .tc main_v43) = Stage.lsmOut (W (Proc.devRef .tc main_call1_v5)) := by
  unfold Stage.lsmOut; after_results; rfl

/-! ## An argument array passes through every stretch that does not write it -/

theorem keptA_arg1 : after opsA W (Proc.devRef .tc main_arg1) = W (Proc.devRef .tc main_arg1) := by after_results
theorem keptA_arg3 : after opsA W (Proc.devRef .tc main_arg3) = W (Proc.devRef .tc main_arg3) := by after_results
theorem keptA_arg4 : after opsA W (Proc.devRef .tc main_arg4) = W (Proc.devRef .tc main_arg4) := by after_results
theorem keptA_arg5 : after opsA W (Proc.devRef .tc main_arg5) = W (Proc.devRef .tc main_arg5) := by after_results
theorem keptA_arg6 : after opsA W (Proc.devRef .tc main_arg6) = W (Proc.devRef .tc main_arg6) := by after_results
theorem keptB_arg1 : after opsB W (Proc.devRef .tc main_arg1) = W (Proc.devRef .tc main_arg1) := by after_results
theorem keptB_arg3 : after opsB W (Proc.devRef .tc main_arg3) = W (Proc.devRef .tc main_arg3) := by after_results
theorem keptB_arg4 : after opsB W (Proc.devRef .tc main_arg4) = W (Proc.devRef .tc main_arg4) := by after_results
theorem keptB_arg5 : after opsB W (Proc.devRef .tc main_arg5) = W (Proc.devRef .tc main_arg5) := by after_results
theorem keptB_arg6 : after opsB W (Proc.devRef .tc main_arg6) = W (Proc.devRef .tc main_arg6) := by after_results
theorem keptC_arg1 : after opsC W (Proc.devRef .tc main_arg1) = W (Proc.devRef .tc main_arg1) := by after_results
theorem keptC_arg4 : after opsC W (Proc.devRef .tc main_arg4) = W (Proc.devRef .tc main_arg4) := by after_results
theorem keptC_arg5 : after opsC W (Proc.devRef .tc main_arg5) = W (Proc.devRef .tc main_arg5) := by after_results
theorem keptC_arg6 : after opsC W (Proc.devRef .tc main_arg6) = W (Proc.devRef .tc main_arg6) := by after_results
theorem keptD_arg1 : after opsD W (Proc.devRef .tc main_arg1) = W (Proc.devRef .tc main_arg1) := by after_results
theorem keptD_arg5 : after opsD W (Proc.devRef .tc main_arg5) = W (Proc.devRef .tc main_arg5) := by after_results
theorem keptD_arg6 : after opsD W (Proc.devRef .tc main_arg6) = W (Proc.devRef .tc main_arg6) := by after_results
theorem keptE_arg5 : after opsE W (Proc.devRef .tc main_arg5) = W (Proc.devRef .tc main_arg5) := by after_results

/-! ## The whole run's result -/

variable (m : (ℓ : Loc nD τ sig) → Buf (Elt F) ℓ)

/-- The first layer's output as a function of the arguments. -/
def layer1 (c : Dev nD) : (⟨S50000x128, .f32⟩ : BufTy).Contents (Elt F) :=
  Stage.biasRelu
    (Stage.agg128 (Stage.dense1 (m ((c.tc : Thread nD τ).loc main_arg0)) (m ((c.tc : Thread nD τ).loc main_arg2)))
      (m ((c.tc : Thread nD τ).loc main_arg1)) (m ((c.tc : Thread nD τ).loc main_arg6)))
    (m ((c.tc : Thread nD τ).loc main_arg3))

/-- The reference program's result as a function of the arguments. -/
def result (c : Dev nD) : (⟨S50000x40, .f32⟩ : BufTy).Contents (Elt F) :=
  Stage.biasLogSoftmax
    (Stage.agg40 (Stage.dense2 (layer1 m c) (m ((c.tc : Thread nD τ).loc main_arg4)))
      (m ((c.tc : Thread nD τ).loc main_arg1)) (m ((c.tc : Thread nD τ).loc main_arg6)))
    (m ((c.tc : Thread nD τ).loc main_arg5))

theorem after_ops_v43 (c : Dev nD) :
    after ops (launchContents m c) (Proc.devRef .tc main_v43) = result m c := by
  rw [ops_eq, StableHlo.after_append, StableHlo.after_append, StableHlo.after_append, StableHlo.after_append,
    StableHlo.after_append, StableHlo.after_append, StableHlo.after_append, StableHlo.after_append]
  rw [afterF4_v43, afterF3_shift, keptF2_v42, afterF2_max, afterF1_v42, afterE_v39, keptE_arg5, afterD_v22, keptD_arg1, keptD_arg5, keptD_arg6,
    afterC_v21, keptC_arg1, keptC_arg4, keptC_arg5, keptC_arg6,
    afterB_v17, keptB_arg1, keptB_arg3, keptB_arg4, keptB_arg5, keptB_arg6,
    afterA_v0, keptA_arg1, keptA_arg3, keptA_arg4, keptA_arg5, keptA_arg6]
  rfl

/-- Every weakly fair execution of the reference program terminates with its result array at the stages'
    composition of the argument arrays, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v43) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v43).trans (after_ops_v43 m c),
     (h c main_arg0).trans (by after_results_simp <;> rfl),
     (h c main_arg1).trans (by after_results_simp <;> rfl),
     (h c main_arg2).trans (by after_results_simp <;> rfl),
     (h c main_arg3).trans (by after_results_simp <;> rfl),
     (h c main_arg4).trans (by after_results_simp <;> rfl),
     (h c main_arg5).trans (by after_results_simp <;> rfl),
     (h c main_arg6).trans (by after_results_simp <;> rfl)⟩)
    (Cert.ReferenceIdeal.RunP.run m ρ)

end Cert.ReferenceIdeal.StageRun

end
-- ==== Proof.RefLayers.lean ====
import proofs.«144000_j27109833572875_1_alg».proof.Proof.RefStages
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.StageValue

open Idealize.ShloMosaic Idealize.ShloMosaic.ValueIdx
open Cert.ReferenceIdeal Cert.ReferenceIdeal.Stage

/-- The first product's contraction record is the plain rows-by-columns one: the same axis lists. -/
theorem dot1_plain : dot_S50000x512_S512x128_S50000x128_1_0_0_1_n_n = DotDims.plain 50000 512 128 := rfl

/-- The second product's contraction record is the plain rows-by-columns one: the same axis lists. -/
theorem dot2_plain : dot_S50000x128_S128x40_S50000x40_1_0_0_1_n_n = DotDims.plain 50000 128 40 := rfl

theorem dense1_eq (X : FVec Ideal S50000x512 .f32) (W : FVec Ideal S512x128 .f32) :
    dense1 (F := Ideal) X W = Cert.Gcn.dense X W := by
  funext i
  obtain ⟨p, q, rfl⟩ : ∃ (p : Fin 50000) (q : Fin 128), i = ix2 p q := ⟨i 0, i 1, eq_ix2 i⟩
  rw [Cert.Gcn.dense_apply]
  unfold dense1
  simp only [Host.dotGeneral]
  -- one contracted axis: entry (p, q) is the sum over the shared coordinate c of X[p, c] · W[c, q]
  rw [dot1_plain]
  exact Cert.LibLayout.dotGeneral_plain_apply none _ X W p q

theorem dense2_eq (H : FVec Ideal S50000x128 .f32) (W : FVec Ideal S128x40 .f32) :
    dense2 (F := Ideal) H W = Cert.Gcn.dense H W := by
  funext i
  obtain ⟨p, q, rfl⟩ : ∃ (p : Fin 50000) (q : Fin 40), i = ix2 p q := ⟨i 0, i 1, eq_ix2 i⟩
  rw [Cert.Gcn.dense_apply]
  unfold dense2
  simp only [Host.dotGeneral]
  -- one contracted axis: entry (p, q) is the sum over the shared coordinate c of H[p, c] · W[c, q]
  rw [dot2_plain]
  exact Cert.LibLayout.dotGeneral_plain_apply none _ H W p q

theorem biasRelu_eq (H : FVec Ideal S50000x128 .f32) (b : FVec Ideal S128 .f32) :
    biasRelu (F := Ideal) H b = Cert.Gcn.biasRelu H b := by
  funext i
  obtain ⟨p, q, rfl⟩ : ∃ (p : Fin 50000) (q : Fin 128), i = ix2 p q := ⟨i 0, i 1, eq_ix2 i⟩
  rw [Cert.Gcn.biasRelu_apply]
  unfold biasRelu
  -- the maximum and the sum are entry by entry; the zero array reads its scalar everywhere, and the bias made a
  -- row and repeated over the rows reads b[q] at (p, q)
  rw [maximumf_apply, addf_apply, Cert.LibLayout.broadcastInDim_scalar_apply, constant_apply,
    Cert.LibLayout.broadcastInDim_1b_ab_apply, Cert.LibLayout.broadcastInDim_b_1b_apply]

end Cert.ReferenceIdeal.StageValue

end
-- ==== Proof.RefSoftmax.lean ====
import proofs.«144000_j27109833572875_1_alg».proof.Proof.RefStages
import proofs.«144000_j27109833572875_1_alg».proof.Proof.Spec
import proofs.«144000_j27109833572875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.StageValue

open Idealize.ShloMosaic Idealize.ShloMosaic.ValueIdx
open Cert.ReferenceIdeal Cert.ReferenceIdeal.Stage Cert.ReferenceIdeal.Facts₀

/-- Dropping axis 1 of a `[50000, 40]` array leaves `[50000]`, every kept axis of its own extent. -/
theorem reduces_rows : S50000x40.Reduces [1] S50000 := by decide

/-- Row `p` with the column `q` inserted on the dropped axis is the entry `(p, q)`. -/
theorem lift_rows (p : Fin 50000) (q : Fin 40) : reduces_rows.lift (ix1 p) q = ix2 p q := by
  funext c
  apply Fin.ext
  match c with
  | ⟨0, _⟩ => rfl
  | ⟨1, _⟩ => rfl

/-- The bias row added to every row: entry `(p, q)` is `H[p, q] + b[q]`. -/
theorem lsmBiased_apply (H : FVec Ideal S50000x40 .f32) (b : FVec Ideal S40 .f32) (p : Fin 50000) (q : Fin 40) :
    lsmBiased (F := Ideal) H b (ix2 p q) = Cert.Gcn.biased H b p q := by
  unfold lsmBiased Cert.Gcn.biased
  rw [addf_apply, Cert.LibLayout.broadcastInDim_1b_ab_apply, Cert.LibLayout.broadcastInDim_b_1b_apply]

/-- A fold of `max` from `c` is at least `c`, so joining it with `c` once more changes nothing. -/
theorem max_fold_max_self {ι : Type} (s : Finset ι) (c : EReal) (f : ι → EReal) :
    max c (s.fold max c f) = s.fold max c f :=
  max_eq_right ((Finset.le_fold_max c).2 (Or.inl le_rfl))

/-- Row `p`'s maximum: the fold of `max` from `-∞` over the row's entries. -/
theorem lsmMax_apply (x : FVec Ideal S50000x40 .f32) (p : Fin 50000) :
    lsmMax (F := Ideal) x (ix1 p)
      = (Finset.univ : Finset (Fin 40)).fold max (Ideal.ofBits .f32 0xFF800000#32) (fun q => x (ix2 p q)) := by
  unfold lsmMax
  rw [maximumf_apply, Cert.LibLayout.broadcastInDim_scalar_apply, constant_apply]
  have h := Host.reduce_eq_fold_single (FloatOps.maximumf (F := Ideal) (φ := .f32)) x
    (constant (F := Ideal) S_ .f32 0xFF800000#32) reducesTo_S50000x40_S50000_d1 reduces_rows h_S_ (ix1 p)
  rw [h, constant_apply]
  generalize Ideal.ofBits .f32 0xFF800000#32 = c
  have hx : (x ∘ reduces_rows.lift (ix1 p)) = fun q : Fin 40 => x (ix2 p q) :=
    funext fun q => congrArg x (lift_rows p q)
  refine (congrArg (fun f => max c ((Finset.univ : Finset (Fin 40)).fold max c f)) hx).trans ?_
  exact max_fold_max_self _ _ _

/-- Every entry less its row's maximum. -/
theorem lsmShift_apply (x : FVec Ideal S50000x40 .f32) (p : Fin 50000) (q : Fin 40) :
    lsmShift (F := Ideal) x (ix2 p q) = x (ix2 p q) - lsmMax (F := Ideal) x (ix1 p) := by
  unfold lsmShift
  rw [subf_apply, Cert.LibLayout.broadcastInDim_a1_ab_apply, Cert.LibLayout.broadcastInDim_a_a1_apply]

/-- The row sum of the exponentials, from the zero word: `∑ q', exp z[p, q']`. -/
theorem expRowSum_apply (z : FVec Ideal S50000x40 .f32) (p : Fin 50000) :
    Host.reduceAdd (F := Ideal) (Host.exp (F := Ideal) z) (constant (F := Ideal) S_ .f32 0x00000000#32)
        reducesTo_S50000x40_S50000_d1 h_S_ (ix1 p)
      = ∑ q' : Fin 40, Ideal.exp (z (ix2 p q')) := by
  show Ideal.hostReduceAdd reducesTo_S50000x40_S50000_d1 (Host.exp (F := Ideal) z) (Ideal.ofBits .f32 0x00000000#32) (ix1 p) = _
  rw [Ideal.hostReduceAdd_single reducesTo_S50000x40_S50000_d1 reduces_rows, Ideal.ofBits_zero_f32, zero_add]
  refine Finset.sum_congr rfl fun q' _ => ?_
  exact congrArg (fun i => Ideal.exp (z i)) (lift_rows p q')

/-- The host's logarithm of an array, read at an index. -/
theorem hostLog_apply {s : Shape} (x : FVec Ideal s .f32) (i : s.Idx) :
    Host.log (F := Ideal) x i = Ideal.log (x i) := rfl

/-- The shifted entries less the logarithm of their exponentials' row sum. -/
theorem lsmOut_apply (z : FVec Ideal S50000x40 .f32) (p : Fin 50000) (q : Fin 40) :
    lsmOut (F := Ideal) z (ix2 p q) = z (ix2 p q) - Ideal.log (∑ q' : Fin 40, Ideal.exp (z (ix2 p q'))) := by
  unfold lsmOut
  rw [subf_apply, Cert.LibLayout.broadcastInDim_a1_ab_apply, hostLog_apply,
    Cert.LibLayout.broadcastInDim_a_a1_apply, expRowSum_apply]

/-- The host's bias with the row-wise log-softmax is the specification's. -/
theorem biasLogSoftmax_eq (H : FVec Ideal S50000x40 .f32) (b : FVec Ideal S40 .f32) :
    biasLogSoftmax (F := Ideal) H b = Cert.Gcn.biasLogSoftmax H b := by
  funext i
  obtain ⟨p, q, rfl⟩ : ∃ (p : Fin 50000) (q : Fin 40), i = ix2 p q := ⟨i 0, i 1, eq_ix2 i⟩
  rw [Cert.Gcn.biasLogSoftmax_apply]
  unfold biasLogSoftmax
  rw [lsmOut_apply]
  -- the shifted entries of the host are the specification's
  have hs : ∀ q' : Fin 40, lsmShift (F := Ideal) (lsmBiased (F := Ideal) H b) (ix2 p q') = Cert.Gcn.shifted H b p q' := by
    intro q'
    rw [lsmShift_apply, lsmMax_apply, lsmBiased_apply]
    unfold Cert.Gcn.shifted Cert.Gcn.rowMax
    simp only [lsmBiased_apply]
  simp only [hs]
  rfl

end Cert.ReferenceIdeal.StageValue

end
-- ==== Proof.Bridge.lean ====
/-
  The two programs' results are one function of the arguments. Stage by stage the reference's host operations are
  the specification's functions (the products as sums over the shared coordinate, the bias with the positive part, the
  bias with the row-wise log-softmax), the kernel's regions compute the same functions block by block, and the edge
  aggregation between them is the same host chain in both programs, carried whole.
-/
import proofs.«144000_j27109833572875_1_alg».proof.Proof.Aggregate
import proofs.«144000_j27109833572875_1_alg».proof.Proof.RefStages
import proofs.«144000_j27109833572875_1_alg».proof.Proof.RefLayers
import proofs.«144000_j27109833572875_1_alg».proof.Proof.RefSoftmax
import proofs.«144000_j27109833572875_1_alg».proof.Proof.Spec

noncomputable section

namespace Cert.Bridge

open Idealize.ShloMosaic

variable {F : FTy → Type} [FloatOps F]

/-- The two programs spell the aggregation over rows of width 128 with the same operations. -/
theorem agg128_eq (h : (⟨Cert.KernelIdeal.S50000x128, .f32⟩ : BufTy).Contents (Elt F))
    (ew : (⟨Cert.KernelIdeal.S1600000, .f32⟩ : BufTy).Contents (Elt F))
    (ei : (⟨Cert.KernelIdeal.S2x1600000, .i32⟩ : BufTy).Contents (Elt F)) :
    Cert.ReferenceIdeal.Stage.agg128 h ew ei = Cert.KernelIdeal.Agg.agg128 h ew ei := rfl

/-- The two programs spell the aggregation over rows of width 40 with the same operations. -/
theorem agg40_eq (h : (⟨Cert.KernelIdeal.S50000x40, .f32⟩ : BufTy).Contents (Elt F))
    (ew : (⟨Cert.KernelIdeal.S1600000, .f32⟩ : BufTy).Contents (Elt F))
    (ei : (⟨Cert.KernelIdeal.S2x1600000, .i32⟩ : BufTy).Contents (Elt F)) :
    Cert.ReferenceIdeal.Stage.agg40 h ew ei = Cert.KernelIdeal.Agg.agg40 h ew ei := rfl

open Cert.ReferenceIdeal.Stage Cert.ReferenceIdeal.StageValue in
/-- The reference's six stages composed are the specification's, with the shared aggregation between them. -/
theorem composed_eq (x0 : FVec Ideal Cert.KernelIdeal.S50000x512 .f32) (x1 : FVec Ideal Cert.KernelIdeal.S1600000 .f32)
    (x2 : FVec Ideal Cert.KernelIdeal.S512x128 .f32) (x3 : FVec Ideal Cert.KernelIdeal.S128 .f32)
    (x4 : FVec Ideal Cert.KernelIdeal.S128x40 .f32) (x5 : FVec Ideal Cert.KernelIdeal.S40 .f32)
    (x6 : (⟨Cert.KernelIdeal.S2x1600000, .i32⟩ : BufTy).Contents (Elt Ideal)) :
    biasLogSoftmax (F := Ideal)
        (agg40 (dense2 (biasRelu (agg128 (dense1 x0 x2) x1 x6) x3) x4) x1 x6) x5
      = Cert.Gcn.biasLogSoftmax
          (Cert.KernelIdeal.Agg.agg40
            (Cert.Gcn.dense (Cert.Gcn.biasRelu (Cert.KernelIdeal.Agg.agg128 (Cert.Gcn.dense x0 x2) x1 x6) x3) x4) x1 x6) x5 := by
  rw [dense1_eq, agg128_eq, biasRelu_eq, dense2_eq, agg40_eq, biasLogSoftmax_eq]

end Cert.Bridge

end
-- ==== Proof.lean ====
/-
  The certificate of a two-layer graph convolution. The kernel program runs four pallas_calls — a product with the first
  weights, a bias with the positive part, a product with the second weights, a bias with the row-wise log-softmax —
  each over ten blocks of 5000 rows, with the edge aggregation (gather the source rows, scale by the edge weights,
  add into the destination rows) on the host after each product; the reference runs the same layers on the host.
  At the extended reals a row block of a product is the product of the row block, the narrowing to bf16 before the
  matrix unit is the identity, and every other stage acts row by row, so each pallas_call leaves its result array at
  the whole-array function the reference applies; the aggregation is the same chain of host operations in both
  programs and is carried as one function. Hence the two results are equal, entry by entry, with no use of the
  inputs' finiteness. The frames of the two kernel programs are their segment-by-segment runs; the reference's is its
  host run; nothing was rewritten by the idealization, so there is nothing to preserve.
-/
import proofs.«144000_j27109833572875_1_alg».proof.Defs
import proofs.«144000_j27109833572875_1_alg».proof.Proof.Gen.Kernel
import proofs.«144000_j27109833572875_1_alg».proof.Proof.Gen.Kernel.Skeleton
import proofs.«144000_j27109833572875_1_alg».proof.Proof.Gen.Kernel.Launch
import proofs.«144000_j27109833572875_1_alg».proof.Proof.Gen.Kernel.Points
import proofs.«144000_j27109833572875_1_alg».proof.Proof.Gen.Kernel.Frame
import proofs.«144000_j27109833572875_1_alg».proof.Proof.Gen.KernelIdeal
import proofs.«144000_j27109833572875_1_alg».proof.Proof.Gen.KernelIdeal.Skeleton
import proofs.«144000_j27109833572875_1_alg».proof.Proof.Gen.KernelIdeal.Launch
import proofs.«144000_j27109833572875_1_alg».proof.Proof.Gen.KernelIdeal.Points
import proofs.«144000_j27109833572875_1_alg».proof.Proof.Gen.KernelIdeal.Frame
import proofs.«144000_j27109833572875_1_alg».proof.Proof.Gen.ReferenceIdeal
import proofs.«144000_j27109833572875_1_alg».proof.Proof.Gen.Pre_finite_inputs
import proofs.«144000_j27109833572875_1_alg».proof.Proof.KernelRun
import proofs.«144000_j27109833572875_1_alg».proof.Proof.KernelValue
import proofs.«144000_j27109833572875_1_alg».proof.Proof.RefRun
import proofs.«144000_j27109833572875_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.StageRun.run (F := Ideal) m ρ)

theorem preserves : Cert.preserves_Kernel_KernelIdeal := trivial

/-- Both programs end with the result array at the composition of the six stages applied to the arguments. -/
theorem algebraic : Cert.algebraic_KernelIdeal_ReferenceIdeal := by
  intro m ρ m' ρ' _ hagree
  refine ⟨fun c => Cert.KernelIdeal.ChainValue.result m c, ?_, ?_⟩
  · exact (θ_run Cert.KernelIdeal.defs _ _).mono
      (fun _ h c => ⟨(h c).1.trans (Cert.KernelIdeal.ChainValue.W6_v37 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.StageRun.run (F := Ideal) m' ρ')
    obtain ⟨h0, h1, h2, h3, h4, h5, h6⟩ := hagree c
    unfold Cert.ReferenceIdeal.StageRun.result Cert.ReferenceIdeal.StageRun.layer1
      Cert.KernelIdeal.ChainValue.result Cert.KernelIdeal.ChainValue.layer1
    rw [h0, h1, h2, h3, h4, h5, h6]
    exact Cert.Bridge.composed_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
